-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x1 : Shape := ⟨2, ![8192, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_

variable [Facts]

def fn {F : FTy → Type} [FloatOps F] (main_arg0 : FVec F S8192x256 .f32) (main_arg1 : FVec F S8192x256 .f32) (main_arg2 : FVec F S8192x1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  main_v13
-- ==== Kernel.lean ====
abbrev S8192x256 : Shape := ⟨2, ![8192, 256]⟩
abbrev S8192x1 : Shape := ⟨2, ![8192, 1]⟩
abbrev S1024x256 : Shape := ⟨2, ![1024, 256]⟩
abbrev S1024x1 : Shape := ⟨2, ![1024, 1]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1, .f32⟩
  | .hbm, ⟨3, _⟩ => ⟨S8192x1, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_16 : BitVec 32 := 0#32
  let v39 : BitVec 1 := Scalar.cmpi .ne v38 c0_i32_16
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  reduces_S1024x1024_S1024 : S1024x1024.Reduces [1] S1024
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x1, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []
  dot_S8192x8192_S8192x1_S8192x1_1_0_0_1_n_n_wf : DotDims.WF S8192x8192 S8192x1 S8192x1 [1] [0] [0] [1] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.BodyCases.lean ====
/-
  What each control case of the body leaves behind, as the body's two stored values. The body keeps a running column in
  a scratch buffer: at the first tile of a row of tiles it stores the zero column there and then the step's value over
  it; at every later tile it stores the step's value over what the tile before left; at the last tile it also copies the
  scratch, as just updated, into the output block. Each of these is one store covering the whole buffer (at the first
  tile two, the later one covering), so what the buffer holds afterwards is that store's value, with every load of the
  body reading a whole buffer.
-/
import proofs.«164541_j51213190037873_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- First tile of a row of tiles: the scratch ends at the step's value over the zero column (the step's load of the
    scratch reads back the zero column just stored). -/
theorem scratch_first (c : Dev nD) (i : grid0.Coords) (a2 : Memref sig .tc .vmem S1024x256 .f32) (h2 : a2.IsWhole) (a3 : Memref sig .tc .vmem S1024x256 .f32) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (hc0 : cond0_0 i) (hc1 : ¬cond0_1 i)
    (x0 x1 : Vec F S1024x256 .f32) (x2 : Vec F S1024x1 .f32) :
    sout0_A_0 c i a2 h2 a3 h3 a4 h4 a5 h5 a6 h6 hc0 hc1 x0 x1 x2 = k0_pay2 x0 x1 x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x1) hz, View.readCov_unit_zero (S := S1024x1) _ hz]
  simp only [View.readAt_eq_ld, h2.read_unread, h3.read_unread, h4.read_unread,
    View.ld_unit_zero (S := S1024x256) hz, View.ld_unit_zero (S := S1024x1) hz]

/-- A middle tile: the scratch ends at the step's value over what it held. -/
theorem scratch_middle (c : Dev nD) (i : grid0.Coords) (a2 : Memref sig .tc .vmem S1024x256 .f32) (h2 : a2.IsWhole) (a3 : Memref sig .tc .vmem S1024x256 .f32) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (hc0 : ¬cond0_0 i) (hc1 : ¬cond0_1 i)
    (x0 x1 : Vec F S1024x256 .f32) (x2 xs : Vec F S1024x1 .f32) :
    sout0_B_0 c i a2 h2 a3 h3 a4 h4 a5 h5 a6 h6 hc0 hc1 x0 x1 x2 xs = k0_pay2 x0 x1 x2 xs := by
  unfold sout0_B_0
  rw [View.read_writes_eq_canon _ _ _ (scover0_B_0 c i a2 h2 a3 h3 a4 h4 a5 h5 a6 h6 hc0 hc1 x0 x1 x2 xs)]
  unfold kernelRun0_B
  dsimp only
  sl_unfold_words
  rw [View.canon_unit_zero hz]
  simp only [View.readAt_eq_ld, h2.read_unread, h3.read_unread, h4.read_unread, h6.read_unread,
    View.ld_unit_zero (S := S1024x256) hz, View.ld_unit_zero (S := S1024x1) hz]

/-- The last tile: the scratch ends at the step's value over what it held … -/
theorem scratch_last (c : Dev nD) (i : grid0.Coords) (a2 : Memref sig .tc .vmem S1024x256 .f32) (h2 : a2.IsWhole) (a3 : Memref sig .tc .vmem S1024x256 .f32) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (hc0 : ¬cond0_0 i) (hc1 : cond0_1 i)
    (x0 x1 : Vec F S1024x256 .f32) (x2 xs : Vec F S1024x1 .f32) :
    sout0_C_0 c i a2 h2 a3 h3 a4 h4 a5 h5 a6 h6 hc0 hc1 x0 x1 x2 xs = k0_pay2 x0 x1 x2 xs := by
  unfold sout0_C_0
  rw [View.read_writes_eq_canon _ _ _ (scover0_C_0 c i a2 h2 a3 h3 a4 h4 a5 h5 a6 h6 hc0 hc1 x0 x1 x2 xs)]
  unfold kernelRun0_C
  dsimp only
  sl_unfold_words
  rw [View.canon_unit_zero hz]
  simp only [View.readAt_eq_ld, h2.read_unread, h3.read_unread, h4.read_unread, h6.read_unread,
    View.ld_unit_zero (S := S1024x256) hz, View.ld_unit_zero (S := S1024x1) hz]

/-- … and the output block ends at the same value: the copy reads the scratch back after the step's store. -/
theorem out_last (c : Dev nD) (i : grid0.Coords) (a2 : Memref sig .tc .vmem S1024x256 .f32) (h2 : a2.IsWhole) (a3 : Memref sig .tc .vmem S1024x256 .f32) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (hc0 : ¬cond0_0 i) (hc1 : cond0_1 i)
    (x0 x1 : Vec F S1024x256 .f32) (x2 xs : Vec F S1024x1 .f32) :
    out0_C_3 c i a2 h2 a3 h3 a4 h4 a5 h5 a6 h6 hc0 hc1 x0 x1 x2 xs = k0_pay2 x0 x1 x2 xs := by
  unfold out0_C_3
  rw [View.read_writes_eq_canon _ _ _ (cover0_C_3 c i a2 h2 a3 h3 a4 h4 a5 h5 a6 h6 hc0 hc1 x0 x1 x2 xs)]
  unfold kernelRun0_C
  dsimp only
  sl_unfold_words
  rw [View.canon_unit_zero hz, View.readCov_unit_zero (S := S1024x1) _ hz]
  simp only [View.readAt_eq_ld, h2.read_unread, h3.read_unread, h4.read_unread, h6.read_unread,
    View.ld_unit_zero (S := S1024x256) hz, View.ld_unit_zero (S := S1024x1) hz]

end Cert.KernelIdeal.Cases

end
-- ==== Proof.RbfRidge.lean ====
/-
  The function both programs compute, over the extended reals. With rows u = xq_r and v = xt_n of 256 entries,

      out r = Σ_n  exp( -(1/256) · max( (‖u‖² + ‖v‖²) − 2·⟨u, v⟩ , 0 ) ) · α_n          (n over all 8192 training rows)

  The kernel reaches it by tiles: for a block of 1024 query rows it walks the eight blocks of 1024 training rows,
  starting from zero and adding one block's partial sum at a time. Over the extended reals addition is commutative
  and associative with neutral element 0 (no finiteness is needed for that), so the eight partial sums, added in order
  onto zero, are the one sum over all 8192 rows (`sum_blocks`, `zero_add_block`).
-/
import Idealize.ShloMosaic.PureOps.Ideal
import Idealize.ShloMosaic.Lib.ValueIdx

noncomputable section

open scoped BigOperators

namespace Cert.RbfRidge

open Idealize.ShloMosaic Idealize.ShloMosaic.ValueIdx

/-- The squared Euclidean norm of a 256-vector. -/
def sqn (u : Fin 256 → EReal) : EReal := ∑ d : Fin 256, u d * u d

/-- The inner product of two 256-vectors. -/
def inner (u v : Fin 256 → EReal) : EReal := ∑ d : Fin 256, u d * v d

/-- The radial kernel weight of two rows: exp(−(1/256)·max(‖u‖² + ‖v‖² − 2⟨u,v⟩, 0)). The three literals are the
    words both programs print: −1/256, 2 and 0. -/
def rbf (u v : Fin 256 → EReal) : EReal :=
  Ideal.exp (Ideal.ofBits .f32 0xBB800000#32
    * max ((sqn u + sqn v) - Ideal.ofBits .f32 0x40000000#32 * inner u v) (Ideal.ofBits .f32 0x00000000#32))

/-- Row `r` of an array of 256-entry rows. -/
abbrev row {n : ℕ} (x : (⟨2, ![n, 256]⟩ : Shape).Idx → EReal) (r : Fin n) : Fin 256 → EReal := fun d => x (ix2 r d)

/-- Row number 1024·k + q of 8192: row q of block k. (Total in k: the number is taken modulo 8192, which changes
    nothing for k below 8.) -/
def rowOf (k : ℕ) (q : Fin 1024) : Fin 8192 := ⟨(1024 * k + q.val) % 8192, Nat.mod_lt _ (by norm_num)⟩

theorem rowOf_val (k : ℕ) (hk : k < 8) (q : Fin 1024) : (rowOf k q).val = 1024 * k + q.val := by
  have := q.isLt
  show (1024 * k + q.val) % 8192 = _
  omega

/-- One tile's contribution to query row `u`: the weights against 1024 training rows, each times its coefficient. -/
def tileSum (u : Fin 256 → EReal) (vt : (⟨2, ![1024, 256]⟩ : Shape).Idx → EReal)
    (a : (⟨2, ![1024, 1]⟩ : Shape).Idx → EReal) : EReal :=
  ∑ q : Fin 1024, rbf u (row vt q) * a (ix2 q 0)

/-- Block `k`'s contribution to query row `u`, read off the whole arrays. -/
def blockSum (u : Fin 256 → EReal) (xt : (⟨2, ![8192, 256]⟩ : Shape).Idx → EReal)
    (al : (⟨2, ![8192, 1]⟩ : Shape).Idx → EReal) (k : ℕ) : EReal :=
  ∑ q : Fin 1024, rbf u (row xt (rowOf k q)) * al (ix2 (rowOf k q) 0)

/-- The whole sum for query row `u`. -/
def ridge (u : Fin 256 → EReal) (xt : (⟨2, ![8192, 256]⟩ : Shape).Idx → EReal)
    (al : (⟨2, ![8192, 1]⟩ : Shape).Idx → EReal) : EReal :=
  ∑ n : Fin 8192, rbf u (row xt n) * al (ix2 n 0)

/-- The result array: entry (r, 0) is the whole sum for query row r. -/
def result (xq xt : (⟨2, ![8192, 256]⟩ : Shape).Idx → EReal) (al : (⟨2, ![8192, 1]⟩ : Shape).Idx → EReal) :
    (⟨2, ![8192, 1]⟩ : Shape).Idx → EReal :=
  fun i => ridge (row xq (i 0)) xt al

/-- Eight blocks of 1024 rows are the 8192 rows: a sum over all rows is the sum of the blocks' sums. -/
theorem sum_blocks (g : Fin 8192 → EReal) :
    ∑ k ∈ Finset.range 8, ∑ q : Fin 1024, g (rowOf k q) = ∑ n : Fin 8192, g n := by
  rw [Finset.sum_range (fun k => ∑ q : Fin 1024, g (rowOf k q))]
  rw [← Fintype.sum_prod_type' (fun (k : Fin 8) (q : Fin 1024) => g (rowOf k.val q))]
  refine Fintype.sum_equiv (finProdFinEquiv (m := 8) (n := 1024)) _ _ (fun x => congrArg g (Fin.ext ?_))
  have h1 := x.1.isLt
  have h2 := x.2.isLt
  show (1024 * x.1.val + x.2.val) % 8192 = x.2.val + 1024 * x.1.val
  omega

/-- The eight block sums make the whole sum. -/
theorem blocks_eq_ridge (u : Fin 256 → EReal) (xt : (⟨2, ![8192, 256]⟩ : Shape).Idx → EReal)
    (al : (⟨2, ![8192, 1]⟩ : Shape).Idx → EReal) :
    ∑ k ∈ Finset.range 8, blockSum u xt al k = ridge u xt al :=
  sum_blocks (fun n => rbf u (row xt n) * al (ix2 n 0))

/-- The accumulation's first step: zero plus block 0 is the sum of the blocks up to 0. -/
theorem zero_add_block (S : ℕ → EReal) : (0 : EReal) + S 0 = ∑ k ∈ Finset.range (0 + 1), S k := by
  rw [zero_add, Finset.sum_range_one]

/-- A later step: the blocks up to j, plus block j + 1, are the blocks up to j + 1. -/
theorem add_block (S : ℕ → EReal) (j : ℕ) :
    (∑ k ∈ Finset.range (j + 1), S k) + S (j + 1) = ∑ k ∈ Finset.range (j + 1 + 1), S k :=
  (Finset.sum_range_succ S (j + 1)).symm

end Cert.RbfRidge

end
-- ==== Proof.LibColumn.lean ====
/-
  Two layout operations in their COLUMN form, read at an index given by coordinates: a vector of length a cast to the
  column [a, 1], and a column [a, 1] broadcast across the b columns of a matrix [a, b]. A row-wise reduction kept as a
  column (a sum over the last axis with the axis kept) meets both.
-/
import Idealize.ShloMosaic.Lib.Pipeline.Value
import Idealize.ShloMosaic.Lib.ValueIdx

namespace Cert.LibColumn

open Idealize.ShloMosaic Idealize.ShloMosaic.ValueIdx

variable {α : Type}

/-- A vector `[a]` cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.TileStep.lean ====
/-
  One tile step of the kernel, read entry by entry over the extended reals. From a block `x0` of 1024 query rows, a
  block `x1` of 1024 training rows, their coefficients `x2` and the running column `xs`, the body forms

      xs_p + Σ_q exp(−(1/256)·max(‖x0_p‖² + ‖x1_q‖² − 2⟨x0_p, x1_q⟩, 0)) · x2_q        (q over the block's 1024 rows)

  for every row p. The squared norms are lane sums kept as a column (the training block's transposed to a row), the
  inner products one matrix product of the two blocks contracted over their 256 columns into a zero accumulator (the
  narrowing of its operands to the 16-bit format is the identity on extended reals), and the last sum again a lane sum.
-/
import proofs.«164541_j51213190037873_1_alg».proof.Proof.Gen.KernelIdeal.Skeleton
import proofs.«164541_j51213190037873_1_alg».proof.Proof.RbfRidge
import proofs.«164541_j51213190037873_1_alg».proof.Proof.LibColumn
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Tile

open Cert.KernelIdeal Cert.KernelIdeal.Gen
open Idealize.ShloMosaic Idealize.ShloMosaic.ValueIdx Cert.RbfRidge Cert.LibColumn

/-! ## The squared norms -/

/-- A block's row sums of squares kept as a column: entry (p, ·) is ‖x_p‖². -/
theorem sqcol_apply (x : FVec Ideal S1024x256 .f32) (hr : S1024x256.Reduces [1] S1024) (hc : S1024.ShapeCasts S1024x1)
    (hacc : (0x00000000#32 : BitVec 32) = 0x00000000#32) (p : Fin 1024) (u : Fin 1) :
    shapeCast S1024x1 (multiReduction .add [1] S1024 (mulf x x) 0x00000000#32 hr (.inl rfl) hacc) hc (ix2 p u)
      = sqn (row x p) := by
  refine (shapeCast_a_a1_apply _ hc p u).trans ?_
  refine (Ideal.multiReduction_add_single (mulf x x) 0x00000000#32 hr (.inl rfl) hacc (ix1 p)).trans ?_
  refine Finset.sum_congr rfl fun k _ => ?_
  have e : hr.lift (ix1 p) k = ix2 p k :=
    funext fun a => Fin.ext (by match a with | ⟨0, _⟩ => rfl | ⟨1, _⟩ => rfl)
  show x (hr.lift (ix1 p) k) * x (hr.lift (ix1 p) k) = x (ix2 p k) * x (ix2 p k)
  rw [e]
  rfl

/-- The query block's column of squared norms spread over the tile: entry (p, q) is ‖x_p‖². -/
theorem qnorm_apply (x : FVec Ideal S1024x256 .f32) (hr : S1024x256.Reduces [1] S1024) (hc : S1024.ShapeCasts S1024x1)
    (hb : S1024x1.Broadcasts S1024x1024) (hacc : (0x00000000#32 : BitVec 32) = 0x00000000#32) (p q : Fin 1024) :
    broadcastTo S1024x1024 (shapeCast S1024x1 (multiReduction .add [1] S1024 (mulf x x) 0x00000000#32 hr (.inl rfl) hacc) hc) hb
      (ix2 p q) = sqn (row x p) :=
  (broadcastTo_a1_ab_apply _ hb p q).trans (sqcol_apply x hr hc hacc p 0)

/-- The training block's column of squared norms, transposed to a row and spread over the tile: entry (p, q) is ‖x_q‖². -/
theorem tnorm_apply (x : FVec Ideal S1024x256 .f32) (hr : S1024x256.Reduces [1] S1024) (hc : S1024.ShapeCasts S1024x1)
    (ht : S1024x1.Transposes [1, 0] S1x1024) (hb : S1x1024.Broadcasts S1024x1024)
    (hacc : (0x00000000#32 : BitVec 32) = 0x00000000#32) (p q : Fin 1024) :
    broadcastTo S1024x1024 (transpose S1x1024 [1, 0]
        (shapeCast S1024x1 (multiReduction .add [1] S1024 (mulf x x) 0x00000000#32 hr (.inl rfl) hacc) hc) ht) hb
      (ix2 p q) = sqn (row x q) :=
  (broadcastTo_1b_ab_apply _ hb p q).trans ((transpose_ix2_apply _ ht 0 q).trans (sqcol_apply x hr hc hacc q 0))

/-- The coefficient column, transposed to a row and spread over the tile: entry (p, q) is the coefficient of row q. -/
theorem coef_apply (x2 : FVec Ideal S1024x1 .f32) (ht : S1024x1.Transposes [1, 0] S1x1024)
    (hb : S1x1024.Broadcasts S1024x1024) (p q : Fin 1024) :
    broadcastTo S1024x1024 (transpose S1x1024 [1, 0] x2 ht) hb (ix2 p q) = x2 (ix2 q (0 : Fin 1)) :=
  (broadcastTo_1b_ab_apply _ hb p q).trans (transpose_ix2_apply x2 ht 0 q)

/-! ## The inner products: the product of the two blocks contracted over their columns -/

theorem lhs_gram_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_gram_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_gram_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_gram_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The matrix product into the zero accumulator, at (p, q): ⟨x0_p, x1_q⟩. -/
theorem gram_apply (x0 x1 : FVec Ideal S1024x256 .f32) (hlt : FTy.bits .bf16 < FTy.bits .f32) (p q : Fin 1024) :
    matmul dot_S1024x256_S1024x256_S1024x1024_1_1_0_0_n_n none (truncf .bf16 x0 hlt) (truncf .bf16 x1 hlt) (constant S1024x1024 .f32 0x00000000#32) (ix2 p q)
      = inner (row x0 p) (row x1 q) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun a => Fin.ext (by
    match a with
    | ⟨0, _⟩ => exact lhs_gram_0 _ _
    | ⟨1, _⟩ => exact (lhs_gram_1 _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun a => Fin.ext (by
    match a with
    | ⟨0, _⟩ => exact rhs_gram_0 _ _
    | ⟨1, _⟩ => exact (rhs_gram_1 _ _).trans hk)
  rw [el, er]
  rfl

/-! ## The step -/

/-- The reset stores the zero column. -/
theorem reset_apply (i : S1024x1.Idx) : (k0_pay1 (F := Ideal)) i = 0 := by
  unfold k0_pay1
  rw [shapeCast_self]
  exact Ideal.ofBits_zero_f32

/-- One accumulation step at row p: the running entry plus the tile's sum. -/
theorem step_apply (x0 x1 : FVec Ideal S1024x256 .f32) (x2 xs : FVec Ideal S1024x1 .f32) (p : Fin 1024) :
    k0_pay2 (F := Ideal) x0 x1 x2 xs (ix2 p (0 : Fin 1)) = xs (ix2 p (0 : Fin 1)) + tileSum (row x0 p) x1 x2 := by
  unfold k0_pay2
  dsimp only
  rw [shapeCast_self]
  refine congrArg (xs (ix2 p (0 : Fin 1)) + ·) ?_
  refine (shapeCast_a_a1_apply _ _ p 0).trans ?_
  refine (Ideal.multiReduction_add_single _ 0x00000000#32 reduces_S1024x1024_S1024 (.inl rfl) rfl (ix1 p)).trans ?_
  refine Finset.sum_congr rfl fun (q : Fin 1024) _ => ?_
  have e : reduces_S1024x1024_S1024.lift (ix1 p) q = ix2 p q :=
    funext fun a => Fin.ext (by match a with | ⟨0, _⟩ => rfl | ⟨1, _⟩ => rfl)
  rw [e]
  show Ideal.exp (Ideal.ofBits .f32 0xBB800000#32 * max ((_ + _) - Ideal.ofBits .f32 0x40000000#32 * _) (Ideal.ofBits .f32 0x00000000#32)) * _ = _
  exact congrArg₂ (· * ·)
    (congrArg Ideal.exp (congrArg (Ideal.ofBits .f32 0xBB800000#32 * ·)
      (congrArg (max · (Ideal.ofBits .f32 0x00000000#32))
        (congrArg₂ (· - ·)
          (congrArg₂ (· + ·) (qnorm_apply x0 _ _ _ rfl p q) (tnorm_apply x1 _ _ _ _ rfl p q))
          (congrArg (Ideal.ofBits .f32 0x40000000#32 * ·) (gram_apply x0 x1 _ p q))))))
    (coef_apply x2 _ _ p q)

end Cert.KernelIdeal.Tile

end
-- ==== Proof.RidgeRun.lean ====
/-
  The kernel's result array, entry by entry. The grid is 8 × 8, walked row-major: point t works on query-row block
  t / 8 and training-row block t % 8. Along one row of tiles the scratch column holds, after tile j, the sum of the
  block sums 0 … j of its query rows (induction on the point: the first tile stores zero plus block 0, each later one
  adds its block). At tile 7 that column is copied to the output block and written back to rows 1024·(t / 8) … of the
  result, and eight block sums are the whole sum over the 8192 training rows. The eight write-backs cover the result.
-/
import proofs.«164541_j51213190037873_1_alg».proof.Proof.Gen.KernelIdeal.Value
import proofs.«164541_j51213190037873_1_alg».proof.Proof.BodyCases
import proofs.«164541_j51213190037873_1_alg».proof.Proof.TileStep
import Idealize.ShloMosaic.Lib.Pipeline.Value

noncomputable section

open scoped BigOperators

namespace Cert.KernelIdeal.RidgeValue

open Cert.KernelIdeal Cert.KernelIdeal.Gen
open Idealize.ShloMosaic Idealize.ShloMosaic.TcCoe Idealize.SL.Sem Idealize.ShloMosaic.ValueIdx Cert.RbfRidge
open Idealize.ShloMosaic.Pipeline (Dat)

variable (m : (ℓ : Loc nD τ sig) → Buf (Elt Ideal) ℓ) (ρ : Dev nD → PrngReg)

/-! ## The arrays and the blocks, at their literal types -/

/-- The query rows, the training rows and the coefficients, as the region finds them. -/
abbrev xq (c : Dev nD) : FVec Ideal S8192x256 .f32 := V m c main_arg0
abbrev xt (c : Dev nD) : FVec Ideal S8192x256 .f32 := V m c main_arg1
abbrev al (c : Dev nD) : FVec Ideal S8192x1 .f32 := V m c main_arg2

/-- The three input blocks at point t. -/
abbrev qblk (c : Dev nD) (t : Fin cfg0.N) : FVec Ideal S1024x256 .f32 := iblk m c 0 t
abbrev tblk (c : Dev nD) (t : Fin cfg0.N) : FVec Ideal S1024x256 .f32 := iblk m c 1 t
abbrev ablk (c : Dev nD) (t : Fin cfg0.N) : FVec Ideal S1024x1 .f32 := iblk m c 2 t

/-- The printed index maps over the grid: the query block and the output block move with t / 8, the training block
    and the coefficient block with t % 8; no block moves along its second axis. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0 :=
  (by decide +kernel : ∀ t : Fin grid0.N, _)

theorem lt_64 (t : Fin cfg0.N) : t.val < 64 := lt_of_lt_of_eq t.isLt (show cfg0.N = 64 from N_0)

/-- Row p of the query block at t is query row 1024·(t / 8) + p. -/
theorem qblk_row (c : Dev nD) (t : Fin cfg0.N) (p : Fin 1024) :
    row (qblk m c t) p = row (xq m c) (rowOf (t.val / 8) p) := by
  funext d
  obtain ⟨e0, e1, -⟩ := idx_facts t
  have hN := lt_64 t
  have hp := p.isLt
  show iblk m c 0 t (ix2 p d) = V m c main_arg0 (ix2 (rowOf (t.val / 8) p) d)
  unfold iblk
  rw [View.read_apply]
  show V m c main_arg0 (((cfg0.win 0).blk t).view.emb (ix2 p d)) = V m c main_arg0 _
  refine congrArg (V m c main_arg0) (funext fun a => Fin.ext ?_)
  match a with
  | ⟨0, _⟩ => show win0_0.index t (0 : Fin 2) * 1024 + 1 * p.val = (1024 * (t.val / 8) + p.val) % 8192; rw [e0]; omega
  | ⟨1, _⟩ => show win0_0.index t (1 : Fin 2) * 256 + 1 * d.val = d.val; rw [e1]; omega

/-- Row q of the training block at t is training row 1024·(t % 8) + q. -/
theorem tblk_row (c : Dev nD) (t : Fin cfg0.N) (q : Fin 1024) :
    row (tblk m c t) q = row (xt m c) (rowOf (t.val % 8) q) := by
  funext d
  obtain ⟨-, -, e2, e3, -⟩ := idx_facts t
  have hq := q.isLt
  show iblk m c 1 t (ix2 q d) = V m c main_arg1 (ix2 (rowOf (t.val % 8) q) d)
  unfold iblk
  rw [View.read_apply]
  show V m c main_arg1 (((cfg0.win 1).blk t).view.emb (ix2 q d)) = V m c main_arg1 _
  refine congrArg (V m c main_arg1) (funext fun a => Fin.ext ?_)
  match a with
  | ⟨0, _⟩ => show win0_1.index t (0 : Fin 2) * 1024 + 1 * q.val = (1024 * (t.val % 8) + q.val) % 8192; rw [e2]; omega
  | ⟨1, _⟩ => show win0_1.index t (1 : Fin 2) * 256 + 1 * d.val = d.val; rw [e3]; omega

/-- Entry q of the coefficient block at t is the coefficient of training row 1024·(t % 8) + q. -/
theorem ablk_apply (c : Dev nD) (t : Fin cfg0.N) (q : Fin 1024) :
    ablk m c t (ix2 q (0 : Fin 1)) = al m c (ix2 (rowOf (t.val % 8) q) (0 : Fin 1)) := by
  obtain ⟨-, -, -, -, e4, e5, -⟩ := idx_facts t
  have hq := q.isLt
  show iblk m c 2 t (ix2 q (0 : Fin 1)) = V m c main_arg2 (ix2 (rowOf (t.val % 8) q) (0 : Fin 1))
  unfold iblk
  rw [View.read_apply]
  show V m c main_arg2 (((cfg0.win 2).blk t).view.emb (ix2 q (0 : Fin 1))) = V m c main_arg2 _
  refine congrArg (V m c main_arg2) (funext fun a => Fin.ext ?_)
  match a with
  | ⟨0, _⟩ => show win0_2.index t (0 : Fin 2) * 1024 + 1 * q.val = (1024 * (t.val % 8) + q.val) % 8192; rw [e4]; omega
  | ⟨1, _⟩ => show win0_2.index t (1 : Fin 2) * 1 + 1 * 0 = 0; rw [e5]

/-- The tile's sum at point t, for row p of its query block, is block t % 8's sum for query row 1024·(t / 8) + p. -/
theorem tile_eq (c : Dev nD) (t : Fin cfg0.N) (p : Fin 1024) :
    tileSum (row (qblk m c t) p) (tblk m c t) (ablk m c t)
      = blockSum (row (xq m c) (rowOf (t.val / 8) p)) (xt m c) (al m c) (t.val % 8) := by
  unfold tileSum blockSum
  rw [qblk_row]
  refine Finset.sum_congr rfl fun q _ => ?_
  rw [tblk_row, ablk_apply]

/-! ## What the scratch and the output block hold after a point -/

/-- After the first tile of a row of tiles: the step over the zero column. -/
theorem scratch_at_first (c : Dev nD) (t : Fin cfg0.N) (h0 : t.val % 8 = 0) (h1 : ¬t.val % 8 = 7) :
    (outsAt0 m c t.val t.isLt).2 = k0_pay2 (F := Ideal) (qblk m c t) (tblk m c t) (ablk m c t) (k0_pay1 (F := Ideal)) := by
  rw [outsAt0_A m c t h0 h1]
  dsimp only
  exact Cases.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (qblk m c t) (tblk m c t) (ablk m c t)

/-- After a later tile: the step over what the tile before left. -/
theorem scratch_at_later (c : Dev nD) (t : Fin cfg0.N) (h0 : ¬t.val % 8 = 0) :
    (outsAt0 m c t.val t.isLt).2 = k0_pay2 (F := Ideal) (qblk m c t) (tblk m c t) (ablk m c t)
      (outsAt0 m c (t.val - 1) (Nat.lt_of_le_of_lt (Nat.sub_le _ _) t.isLt)).2 := by
  by_cases h1 : t.val % 8 = 7
  · rw [outsAt0_C m c t h0 h1]
    dsimp only
    exact Cases.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (qblk m c t) (tblk m c t) (ablk m c t) (outsAt0 m c (t.val - 1) (Nat.lt_of_le_of_lt (Nat.sub_le _ _) t.isLt)).2
  · rw [outsAt0_B m c t h0 h1]
    dsimp only
    exact Cases.scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (qblk m c t) (tblk m c t) (ablk m c t) (outsAt0 m c (t.val - 1) (Nat.lt_of_le_of_lt (Nat.sub_le _ _) t.isLt)).2

/-- After the last tile the output block holds what the scratch holds. -/
theorem out_at_last (c : Dev nD) (t : Fin cfg0.N) (h1 : t.val % 8 = 7) :
    (outsAt0 m c t.val t.isLt).1 = (outsAt0 m c t.val t.isLt).2 := by
  have h0 : ¬t.val % 8 = 0 := by omega
  rw [scratch_at_later m c t h0, outsAt0_C m c t h0 h1]
  dsimp only
  exact Cases.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (qblk m c t) (tblk m c t) (ablk m c t) (outsAt0 m c (t.val - 1) (Nat.lt_of_le_of_lt (Nat.sub_le _ _) t.isLt)).2

/-- THE RUNNING SUM: after point n the scratch's entry p is the sum of the block sums 0 … n % 8 of query row
    1024·(n / 8) + p. By induction on the point. -/
theorem running (c : Dev nD) : ∀ (n : ℕ) (h : n < cfg0.N) (p : Fin 1024),
    (outsAt0 m c n h).2 (ix2 p (0 : Fin 1))
      = ∑ k ∈ Finset.range (n % 8 + 1), blockSum (row (xq m c) (rowOf (n / 8) p)) (xt m c) (al m c) k
  | 0, h, p => by
    have e := congrFun (scratch_at_first m c ⟨0, h⟩ rfl (by show ¬(0 : ℕ) % 8 = 7; omega)) (ix2 p (0 : Fin 1))
    refine e.trans ?_
    rw [Tile.step_apply, Tile.reset_apply, tile_eq]
    exact zero_add_block _
  | n + 1, h, p => by
    by_cases h0 : (n + 1) % 8 = 0
    · have e := congrFun (scratch_at_first m c ⟨n + 1, h⟩ h0 (by show ¬(n + 1) % 8 = 7; omega)) (ix2 p (0 : Fin 1))
      refine e.trans ?_
      rw [Tile.step_apply, Tile.reset_apply, tile_eq]
      show (0 : EReal) + blockSum _ _ _ ((n + 1) % 8) = ∑ k ∈ Finset.range ((n + 1) % 8 + 1), blockSum _ _ _ k
      rw [h0]
      exact zero_add_block _
    · have e := congrFun (scratch_at_later m c ⟨n + 1, h⟩ h0) (ix2 p (0 : Fin 1))
      refine e.trans ?_
      rw [Tile.step_apply, tile_eq]
      have ih := running c n (Nat.lt_of_succ_lt h) p
      have e1 : (n + 1) / 8 = n / 8 := by omega
      have e2 : (n + 1) % 8 = n % 8 + 1 := by omega
      show (outsAt0 m c n _).2 (ix2 p (0 : Fin 1)) + blockSum (row (xq m c) (rowOf ((n + 1) / 8) p)) (xt m c) (al m c) ((n + 1) % 8)
        = ∑ k ∈ Finset.range ((n + 1) % 8 + 1), blockSum (row (xq m c) (rowOf ((n + 1) / 8) p)) (xt m c) (al m c) k
      rw [ih, e1, e2]
      exact add_block _ _

/-- At a last tile the output block's entry p is the whole sum for query row 1024·(t / 8) + p. -/
theorem out_block (c : Dev nD) (t : Fin cfg0.N) (h7 : t.val % 8 = 7) (p : Fin 1024) :
    (outsAt0 m c t.val t.isLt).1 (ix2 p (0 : Fin 1))
      = result (xq m c) (xt m c) (al m c) (ix2 (rowOf (t.val / 8) p) (0 : Fin 1)) := by
  rw [out_at_last m c t h7, running m c t.val t.isLt p, h7]
  exact blocks_eq_ridge _ _ _

/-! ## From the blocks to the array -/

/-- What a write-back writes is its block of `result` of the arrays. -/
theorem flushed_eq (c : Dev nD) (t : Fin cfg0.N) (hf : (cfg0.win 3).flush t = true) :
    (dats m 0 c).flushed 3 t = ((cfg0.win 3).blk t).view.read (Elt Ideal) (result (xq m c) (xt m c) (al m c)) := by
  have h7 : t.val % 8 = 7 := (flush0_3 t).mp hf
  obtain ⟨-, -, -, -, -, -, e6, e7⟩ := idx_facts t
  have hN := lt_64 t
  rw [Value.flushed3]
  funext j
  have hj0 : (j 0).val < 1024 := (j 0).isLt
  have hj1 : (j 1).val < 1 := (j 1).isLt
  have hl : (cfg0.win 3).xinj (grid0.coords t) j = ix2 (⟨(j 0).val, hj0⟩ : Fin 1024) (0 : Fin 1) :=
    funext fun a => Fin.ext (by
      match a with
      | ⟨0, _⟩ => rfl
      | ⟨1, _⟩ => show (j 1).val = 0; omega)
  have hr : ((cfg0.win 3).blk t).view.emb j = ix2 (rowOf (t.val / 8) ⟨(j 0).val, hj0⟩) (0 : Fin 1) :=
    funext fun a => Fin.ext (by
      match a with
      | ⟨0, _⟩ => show win0_3.index t (0 : Fin 2) * 1024 + 1 * (j 0).val = (1024 * (t.val / 8) + (j 0).val) % 8192; rw [e6]; omega
      | ⟨1, _⟩ => show win0_3.index t (1 : Fin 2) * 1 + 1 * (j 1).val = 0; rw [e7]; omega)
  rw [View.read_apply]
  show (outsAt0 m c t.val t.isLt).1 ((cfg0.win 3).xinj (grid0.coords t) j)
    = result (xq m c) (xt m c) (al m c) (((cfg0.win 3).blk t).view.emb j)
  rw [hl, hr]
  exact out_block m c t h7 ⟨(j 0).val, hj0⟩

/-- An index of the result is in point t's block iff each coordinate is in the block's range on its axis. -/
theorem mem_blk (t : Fin cfg0.N) (i : S8192x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v0).slice (win0_3.rect t)).set ↔ _
  rw [View.set_slice_whole, Rect.mem_set_unit]
  exact Iff.rfl

/-- Row r of the result is written back at the last tile of the row of tiles that holds it: point 8·(r / 1024) + 7. -/
theorem cover (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  have hlt : 8 * ((i 0).val / 1024) + 7 < cfg0.N := by rw [show cfg0.N = 64 from N_0]; omega
  refine ⟨⟨8 * ((i 0).val / 1024) + 7, hlt⟩, (flush0_3 _).mpr (by show (8 * ((i 0).val / 1024) + 7) % 8 = 7; omega), ?_⟩
  obtain ⟨-, -, -, -, -, -, e6, e7⟩ := idx_facts ⟨8 * ((i 0).val / 1024) + 7, hlt⟩
  rw [mem_blk]
  intro a
  match a with
  | ⟨0, _⟩ =>
    show win0_3.index _ (0 : Fin 2) * 1024 ≤ (i 0).val ∧ (i 0).val < win0_3.index _ (0 : Fin 2) * 1024 + 1024
    rw [e6]; show (8 * ((i 0).val / 1024) + 7) / 8 * 1024 ≤ (i 0).val ∧ (i 0).val < (8 * ((i 0).val / 1024) + 7) / 8 * 1024 + 1024
    omega
  | ⟨1, _⟩ =>
    show win0_3.index _ (1 : Fin 2) * 1 ≤ (i 1).val ∧ (i 1).val < win0_3.index _ (1 : Fin 2) * 1 + 1
    rw [e7]; omega

/-- The result array after the run is `result` of the arrays. -/
theorem final (c : Dev nD) : (dats m 0 c).arrAt 3 cfg0.N = result (xq m c) (xt m c) (al m c) :=
  (dats m 0 c).arrAt_eq_of_cover 3 (result (xq m c) (xt m c) (al m c)) (fun t hf => flushed_eq m c t hf) cover

/-- The run, read: the result array at `result` of the three arguments, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RidgeValue

end
-- ==== Proof.RefIsRidge.lean ====
/-
  The reference, read entry by entry. Its program forms the full 8192 × 8192 matrix of weights
  exp(−(1/256)·max(‖xq_r‖² + ‖xt_n‖² − 2⟨xq_r, xt_n⟩, 0)) — the squared norms as row sums started from the zero word,
  the inner products as one contraction over the 256 columns — and contracts it with the coefficient column. Entry (r, 0)
  of the result is therefore the sum over all n of weight(r, n)·α_n: the function `RbfRidge.result`.
-/
import proofs.«164541_j51213190037873_1_alg».proof.Proof.Gen.ReferenceIdeal.Read
import proofs.«164541_j51213190037873_1_alg».proof.Proof.RbfRidge

noncomputable section

open scoped BigOperators

namespace Cert.ReferenceIdeal.RefValue

open Cert.ReferenceIdeal Cert.ReferenceIdeal.Gen Cert.ReferenceIdeal.Read
open Idealize.ShloMosaic Idealize.ShloMosaic.ValueIdx Cert.RbfRidge

/-- The broadcast column of query-row squared norms, at (r, n): ‖xq_r‖² (the sum starts from the zero word, which is 0). -/
theorem sq_query (x0 : (⟨S8192x256, .f32⟩ : BufTy).Contents (Elt Ideal)) (r n : Fin 8192) :
    val_main_v7 (F := Ideal) x0 (ix2 r n) = sqn (row x0 r) := by
  rw [val_main_v7_apply, val_main_v2_apply, val_main_v1_apply, val_main_cst_apply]
  show Ideal.ofBits .f32 0x00000000#32 + _ = _
  rw [Ideal.ofBits_zero_f32, zero_add]
  refine Finset.sum_congr rfl fun k _ => ?_
  have e : idx_main_v1 (idx_main_v2 (idx_main_v7 (ix2 r n))) k = ix2 r k :=
    funext fun a => Fin.ext (by match a with | ⟨0, _⟩ => rfl | ⟨1, _⟩ => rfl)
  rw [val_main_v0_apply, e]
  rfl

/-- The broadcast row of training-row squared norms, at (r, n): ‖xt_n‖². -/
theorem sq_train (x1 : (⟨S8192x256, .f32⟩ : BufTy).Contents (Elt Ideal)) (r n : Fin 8192) :
    val_main_v8 (F := Ideal) x1 (ix2 r n) = sqn (row x1 n) := by
  rw [val_main_v8_apply, val_main_v6_apply, val_main_v5_apply, val_main_v4_apply, val_main_cst_0_apply]
  show Ideal.ofBits .f32 0x00000000#32 + _ = _
  rw [Ideal.ofBits_zero_f32, zero_add]
  refine Finset.sum_congr rfl fun k _ => ?_
  have e : idx_main_v4 (idx_main_v5 (idx_main_v6 (idx_main_v8 (ix2 r n)))) k = ix2 n k :=
    funext fun a => Fin.ext (by match a with | ⟨0, _⟩ => rfl | ⟨1, _⟩ => rfl)
  rw [val_main_v3_apply, e]
  rfl

/-- The contraction over the 256 columns, at (r, n): ⟨xq_r, xt_n⟩. -/
theorem gram (x0 x1 : (⟨S8192x256, .f32⟩ : BufTy).Contents (Elt Ideal)) (r n : Fin 8192) :
    val_main_v10 (F := Ideal) x0 x1 (ix2 r n) = inner (row x0 r) (row x1 n) := by
  rw [val_main_v10_apply]
  refine Finset.sum_congr rfl fun k _ => ?_
  have el : lidx_main_v10 (ix2 r n) k = ix2 r k :=
    funext fun a => Fin.ext (by match a with | ⟨0, _⟩ => rfl | ⟨1, _⟩ => rfl)
  have er : ridx_main_v10 (ix2 r n) k = ix2 n k :=
    funext fun a => Fin.ext (by match a with | ⟨0, _⟩ => rfl | ⟨1, _⟩ => rfl)
  rw [el, er]

/-- The weight matrix, at (r, n). -/
theorem weight (x0 x1 : (⟨S8192x256, .f32⟩ : BufTy).Contents (Elt Ideal)) (r n : Fin 8192) :
    val_main_v18 (F := Ideal) x0 x1 (ix2 r n) = rbf (row x0 r) (row x1 n) := by
  rw [val_main_v18_apply, val_main_v17_apply, val_main_v16_apply, val_main_cst_3_apply, val_main_v15_apply,
    val_main_v14_apply, val_main_cst_2_apply, val_main_v13_apply, val_main_v12_apply, val_main_v11_apply,
    val_main_cst_1_apply, val_main_v9_apply, sq_query, sq_train, gram]
  rfl

/-- The reference's result is `result` of its three arguments. -/
theorem eq_result (x0 x1 : (⟨S8192x256, .f32⟩ : BufTy).Contents (Elt Ideal))
    (x2 : (⟨S8192x1, .f32⟩ : BufTy).Contents (Elt Ideal)) :
    val_main_v19 (F := Ideal) x0 x1 x2 = result x0 x1 x2 := by
  funext i
  obtain ⟨r, u, rfl⟩ : ∃ (r : Fin 8192) (u : Fin 1), i = ix2 r u := ⟨i 0, i 1, eq_ix2 i⟩
  have hu : u = 0 := Subsingleton.elim _ _
  subst hu
  rw [val_main_v19_apply]
  show _ = ∑ n : Fin 8192, rbf (row x0 r) (row x1 n) * x2 (ix2 n (0 : Fin 1))
  refine Finset.sum_congr rfl fun n _ => ?_
  have e1 : lidx_main_v19 (ix2 r (0 : Fin 1)) n = ix2 r n :=
    funext fun a => Fin.ext (by match a with | ⟨0, _⟩ => rfl | ⟨1, _⟩ => rfl)
  have e2 : ridx_main_v19 (ix2 r (0 : Fin 1)) n = ix2 n (0 : Fin 1) :=
    funext fun a => Fin.ext (by match a with | ⟨0, _⟩ => rfl | ⟨1, _⟩ => rfl)
  rw [e1, e2, weight]

end Cert.ReferenceIdeal.RefValue

end
-- ==== Proof.lean ====
/-
  The radial-kernel ridge product, tiled: out_r = Σ_n exp(−(1/256)·max(‖xq_r‖² + ‖xt_n‖² − 2⟨xq_r, xt_n⟩, 0))·α_n for
  8192 query rows r and 8192 training rows n of 256 entries.

  The reference forms the whole 8192 × 8192 weight matrix and contracts it with the coefficient column. The kernel walks
  an 8 × 8 grid of 1024 × 1024 tiles: within a row of tiles it keeps a running column, set to zero at the first tile,
  increased at every tile by that tile's sum over its 1024 training rows, and written to the result at the last.

  Over the extended reals every operation of the two programs is the same exact one (the narrowing of the matrix
  product's operands to the 16-bit format is the identity, a product accumulated into zero is the host's contraction,
  a lane sum from the zero word is the host's sum), the three literals are the same words on both sides, and the two
  arrangements differ only in how the sum over n is grouped: zero plus eight block sums, added in order, against one
  sum. Addition on the extended reals is commutative and associative with neutral element zero, so the two agree
  entry by entry — for all inputs; finiteness of the inputs is not used.

  The parts: `RbfRidge` states the common function and the regrouping of the sum; `RefIsRidge` reads the reference's
  result as that function; `TileStep` reads one accumulation step of the kernel at an entry; `BodyCases` says what each
  control case of the body leaves in the scratch and the output block; `RidgeRun` carries the running sum along the
  grid by induction on the point and reads the result array off the eight write-backs.
-/
import proofs.«164541_j51213190037873_1_alg».proof.Defs
import proofs.«164541_j51213190037873_1_alg».proof.Proof.Gen.Kernel
import proofs.«164541_j51213190037873_1_alg».proof.Proof.Gen.Kernel.Skeleton
import proofs.«164541_j51213190037873_1_alg».proof.Proof.Gen.Kernel.Launch
import proofs.«164541_j51213190037873_1_alg».proof.Proof.Gen.Kernel.Points
import proofs.«164541_j51213190037873_1_alg».proof.Proof.Gen.Kernel.Frame
import proofs.«164541_j51213190037873_1_alg».proof.Proof.Gen.KernelIdeal
import proofs.«164541_j51213190037873_1_alg».proof.Proof.Gen.KernelIdeal.Skeleton
import proofs.«164541_j51213190037873_1_alg».proof.Proof.Gen.KernelIdeal.Launch
import proofs.«164541_j51213190037873_1_alg».proof.Proof.Gen.KernelIdeal.Points
import proofs.«164541_j51213190037873_1_alg».proof.Proof.Gen.KernelIdeal.Frame
import proofs.«164541_j51213190037873_1_alg».proof.Proof.Gen.ReferenceIdeal
import proofs.«164541_j51213190037873_1_alg».proof.Proof.Gen.Pre_finite_inputs
import proofs.«164541_j51213190037873_1_alg».proof.Proof.Gen.KernelIdeal.Value
import proofs.«164541_j51213190037873_1_alg».proof.Proof.Gen.ReferenceIdeal.Run
import proofs.«164541_j51213190037873_1_alg».proof.Proof.Gen.ReferenceIdeal.Read
import proofs.«164541_j51213190037873_1_alg».proof.Proof.RidgeRun
import proofs.«164541_j51213190037873_1_alg».proof.Proof.RefIsRidge
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `RbfRidge.result` of the three argument arrays, which agree. -/
theorem algebraic : Cert.algebraic_KernelIdeal_ReferenceIdeal := by
  intro m ρ m' ρ' _ hagree
  refine ⟨fun c => Cert.RbfRidge.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RidgeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.eq_result, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
